-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x512 : Shape := ⟨2, ![4096, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048x256 .f32) (main_arg5 : FVec F S512x256 .f32) (main_arg6 : FVec F S256 .f32) (main_arg7 : FVec F S2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x512 .f32) (main_arg2 : FVec F S2048x256 .f32) (main_arg3 : FVec F S256 .f32) (main_arg4 : FVec F S2048x256 .f32) (main_arg5 : FVec F S512x256 .f32) (main_arg6 : FVec F S256 .f32) (main_arg7 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S4096x2048 : Shape := ⟨2, ![4096, 2048]⟩
abbrev S4096x512 : Shape := ⟨2, ![4096, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S256x2048 : Shape := ⟨2, ![256, 2048]⟩
abbrev S1x256 : Shape := ⟨2, ![1, 256]⟩
abbrev S1x2048 : Shape := ⟨2, ![1, 2048]⟩
abbrev S512x2048 : Shape := ⟨2, ![512, 2048]⟩
abbrev S512x512 : Shape := ⟨2, ![512, 512]⟩

abbrev nBuf : Space → Nat
  | .hbm => 16
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S512x256, .f32⟩
  | .hbm, ⟨6, _⟩ => ⟨S256, .f32⟩
  | .hbm, ⟨7, _⟩ => ⟨S2048, .f32⟩
  | .hbm, ⟨8, _⟩ => ⟨S2048x256, .bf16⟩
  | .hbm, ⟨9, _⟩ => ⟨S512x256, .bf16⟩
  | .hbm, ⟨10, _⟩ => ⟨S256x2048, .f32⟩
  | .hbm, ⟨11, _⟩ => ⟨S256x2048, .bf16⟩
  | .hbm, ⟨12, _⟩ => ⟨S1x256, .f32⟩
  | .hbm, ⟨13, _⟩ => ⟨S1x256, .f32⟩
  | .hbm, ⟨14, _⟩ => ⟨S1x2048, .f32⟩
  | .hbm, ⟨15, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S2048x256, .bf16⟩
  | .local _ .vmem, ⟨5, _⟩ => ⟨S512x256, .bf16⟩
  | .local _ .vmem, ⟨6, _⟩ => ⟨S256x2048, .bf16⟩
  | .local _ .vmem, ⟨7, _⟩ => ⟨S1x256, .f32⟩
  | .local _ .vmem, ⟨8, _⟩ => ⟨S1x256, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S2048x256_S256x2048_1_0 : S2048x256.Transposes [1, 0] S256x2048
  shapeCasts_S256_S1x256 : S256.ShapeCasts S1x256
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x2048_S512x2048_0_0 : ∀ a, (![0, 0] : Fin 2 → Nat) a + S512x2048.size a ≤ S512x2048.size a
  h_S512x2048 : 0 < S512x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S512x256_S512x256_1_0_0_1_n_n_wf : DotDims.WF S512x512 S512x256 S512x256 [1] [0] [0] [1] [] []
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S256x2048.size a
  hwx0_4 : ∀ i : grid0.Coords, EltTy.bits .bf16 = 32 ∨ (Rect.block (s := S256x2048) S256x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S4096x2048.size a
  hwx0_8 : ∀ i : grid0.Coords, EltTy.bits .f32 = 32 ∨ (Rect.block (s := S4096x2048) S512x2048.size (cc0_transform_8 i) (hinb0_8 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x512 : Shape := ⟨2, ![4096, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S4096x256 : Shape := ⟨2, ![4096, 256]⟩
abbrev S1x256 : Shape := ⟨2, ![1, 256]⟩
abbrev S_ : Shape := ⟨0, ![]⟩
abbrev S256x2048 : Shape := ⟨2, ![256, 2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S512x256, .f32⟩
  | .hbm, ⟨6, _⟩ => ⟨S256, .f32⟩
  | .hbm, ⟨7, _⟩ => ⟨S2048, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S256x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S2048x256_S256x2048_1_0 : S2048x256.Transposes [1, 0] S256x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x512_S512x256_S4096x256_1_0_0_1_n_n_wf : DotDims.WF S4096x512 S512x256 S4096x256 [1] [0] [0] [1] [] []
  dot_S4096x2048_S2048x256_S4096x256_1_0_0_1_n_n_wf : DotDims.WF S4096x2048 S2048x256 S4096x256 [1] [0] [0] [1] [] []
  dot_S4096x256_S256x2048_S4096x2048_1_0_0_1_n_n_wf : DotDims.WF S4096x256 S256x2048 S4096x2048 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x2048_S2048x256_S4096x256_1_0_0_1_n_n : DotDims S4096x2048 S2048x256 S4096x256 where
  lhsContracting := [1]
  rhsContracting := [0]
  lhsNonContracting := [0]
  rhsNonContracting := [1]
  lhsBatch := []
  rhsBatch := []
  wf := dot_S4096x2048_S2048x256_S4096x256_1_0_0_1_n_n_wf
def dot_S4096x256_S256x2048_S4096x2048_1_0_0_1_n_n : DotDims S4096x256 S256x2048 S4096x2048 where
  lhsContracting := [1]
  rhsContracting := [0]
  lhsNonContracting := [0]
  rhsNonContracting := [1]
  lhsBatch := []
  rhsBatch := []
  wf := dot_S4096x256_S256x2048_S4096x2048_1_0_0_1_n_n_wf

class Facts : Prop extends Facts₀ where

variable [Facts]
-- ==== Proof.Layer.lean ====
/-
  The layer that both programs compute, one entry at a time, on the extended reals.

  With x : [4096, 2048], ctx : [4096, 512], U : [2048, 256], W : [512, 256], V : [2048, 256] and the
  vectors S, Bc : [256], bias : [2048], the entry at row b and column q is

      ( Σ_r  ( (Σ_n x[b,n] · U[n,r]) · ( S[r] · σ( (Σ_k ctx[b,k] · W[k,r]) + Bc[r] ) ) ) · V[q,r] )  +  bias[q]

  where σ is the logistic function of the extended reals, σ(h) = 1 / (1 + e^(−h)) with σ(−∞) = 0 and
  σ(+∞) = 1. The entry depends on one row of x, one row of ctx, one row of V and one entry of bias, and
  on the whole of U, W, S and Bc. `entryOf` is that expression over the families it reads; nothing in it
  is reassociated or distributed, so no finiteness of the inputs is used anywhere.
-/
import Idealize.ShloMosaic.PureOps.Ideal
import Idealize.ShloMosaic.Lib.ValueIdx

noncomputable section

namespace Cert.Layer

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Row (a : Nat) : Type := (⟨1, ![a]⟩ : Shape).Idx → EReal

/-- One entry of the layer from what it reads: a row of the inputs (`xrow`), a row of the context (`crow`), the
    factor `U`, the context weights `W`, the singular values `S`, the context bias `Bc`, the row of `V` that belongs
    to the output column (`vcol`), and that column's bias. -/
def entryOf (xrow : Fin 2048 → EReal) (crow : Fin 512 → EReal) (U : Fin 2048 → Fin 256 → EReal)
    (W : Fin 512 → Fin 256 → EReal) (S Bc vcol : Fin 256 → EReal) (bias : EReal) : EReal :=
  (∑ r : Fin 256, ((∑ n : Fin 2048, xrow n * U n r)
      * (S r * Ideal.logistic ((∑ k : Fin 512, crow k * W k r) + Bc r))) * vcol r) + bias

/-- `entryOf` depends on its families only through their values. -/
theorem entryOf_congr {xrow xrow' : Fin 2048 → EReal} {crow crow' : Fin 512 → EReal}
    {U U' : Fin 2048 → Fin 256 → EReal} {W W' : Fin 512 → Fin 256 → EReal} {S S' Bc Bc' vcol vcol' : Fin 256 → EReal}
    {bias bias' : EReal}
    (hx : ∀ n, xrow n = xrow' n) (hc : ∀ k, crow k = crow' k) (hU : ∀ n r, U n r = U' n r)
    (hW : ∀ k r, W k r = W' k r) (hS : ∀ r, S r = S' r) (hBc : ∀ r, Bc r = Bc' r) (hv : ∀ r, vcol r = vcol' r)
    (hb : bias = bias') :
    entryOf xrow crow U W S Bc vcol bias = entryOf xrow' crow' U' W' S' Bc' vcol' bias' := by
  obtain rfl : xrow = xrow' := funext hx
  obtain rfl : crow = crow' := funext hc
  obtain rfl : U = U' := funext fun n => funext (hU n)
  obtain rfl : W = W' := funext fun k => funext (hW k)
  obtain rfl : S = S' := funext hS
  obtain rfl : Bc = Bc' := funext hBc
  obtain rfl : vcol = vcol' := funext hv
  obtain rfl := hb
  rfl

/-- The layer's entry at row `b`, column `q`, from the eight argument arrays. -/
def layerAt (x : Mat 4096 2048) (ctx : Mat 4096 512) (U : Mat 2048 256) (S : Row 256) (V : Mat 2048 256)
    (W : Mat 512 256) (Bc : Row 256) (bias : Row 2048) (b : Fin 4096) (q : Fin 2048) : EReal :=
  entryOf (fun n => x (ix2 b n)) (fun k => ctx (ix2 b k)) (fun n r => U (ix2 n r)) (fun k r => W (ix2 k r))
    (fun r => S (ix1 r)) (fun r => Bc (ix1 r)) (fun r => V (ix2 q r)) (bias (ix1 q))

/-- The whole [4096, 2048] result. -/
def layer (x : Mat 4096 2048) (ctx : Mat 4096 512) (U : Mat 2048 256) (S : Row 256) (V : Mat 2048 256)
    (W : Mat 512 256) (Bc : Row 256) (bias : Row 2048) : Mat 4096 2048 :=
  fun i => layerAt x ctx U S V W Bc bias ⟨(i 0).val, (i 0).isLt⟩ ⟨(i 1).val, (i 1).isLt⟩

theorem layer_ix2 (x : Mat 4096 2048) (ctx : Mat 4096 512) (U : Mat 2048 256) (S : Row 256) (V : Mat 2048 256)
    (W : Mat 512 256) (Bc : Row 256) (bias : Row 2048) (b : Fin 4096) (q : Fin 2048) :
    layer x ctx U S V W Bc bias (ix2 b q) = layerAt x ctx U S V W Bc bias b q := rfl

end Cert.Layer

end
-- ==== Proof.RefLayer.lean ====
/-
  The reference computes the layer.

  The reference's result is the last of twenty-two host operations. Read one operation at a time at the index
  (b, q), it is: the bias row broadcast down the rows, added to a matrix product over the rank axis r of
  (x·U)[b,r] · (S[r] · (1 / (1 + exp(−((ctx·W)[b,r] + Bc[r]))))) with the transpose of V. The quotient
  1 / (1 + exp(−h)) with the host's division and exponential is the logistic function by definition on the
  extended reals, the two constants 1.0 are the real number one, and a transpose read at (r, q) is V at (q, r);
  the three matrix products are plain sums over their one contracted axis. So the stage at (b, q) is
  `layerAt` term for term.
-/
import proofs.«417704_j14534169330227_3_alg».proof.Proof.Gen.ReferenceIdeal.Read
import proofs.«417704_j14534169330227_3_alg».proof.Proof.Layer
import Idealize.ShloMosaic.Lib.IdealHost

noncomputable section

namespace Cert.Layer.Ref

open Cert.ReferenceIdeal Cert.ReferenceIdeal.Gen Cert.ReferenceIdeal.Read
open Idealize.ShloMosaic Idealize.ShloMosaic.ValueIdx

/-! ## Where each operation reads its operands -/

/-- The last product's left operand is read in row `b` at the rank index. -/
theorem lidx16 (b : Fin 4096) (q : Fin 2048) (r : Fin 256) : lidx_main_v16 (ix2 b q) r = ix2 b r :=
  funext fun a => Fin.ext (by match a with | ⟨0, _⟩ => rfl | ⟨1, _⟩ => rfl)
/-- and its right operand, the transpose of `V`, at the rank index and column `q`. -/
theorem ridx16 (b : Fin 4096) (q : Fin 2048) (r : Fin 256) : ridx_main_v16 (ix2 b q) r = ix2 r q :=
  funext fun a => Fin.ext (by match a with | ⟨0, _⟩ => rfl | ⟨1, _⟩ => rfl)
/-- The transpose at (r, q) reads `V` at (q, r). -/
theorem idx15 (r : Fin 256) (q : Fin 2048) : idx_main_v15 (ix2 r q) = ix2 q r :=
  funext fun a => Fin.ext (by match a with | ⟨0, _⟩ => rfl | ⟨1, _⟩ => rfl)
/-- The projection x·U at (b, r) reads row `b` of x -/
theorem lidx13 (b : Fin 4096) (r : Fin 256) (n : Fin 2048) : lidx_main_v13 (ix2 b r) n = ix2 b n :=
  funext fun a => Fin.ext (by match a with | ⟨0, _⟩ => rfl | ⟨1, _⟩ => rfl)
/-- and column `r` of U. -/
theorem ridx13 (b : Fin 4096) (r : Fin 256) (n : Fin 2048) : ridx_main_v13 (ix2 b r) n = ix2 n r :=
  funext fun a => Fin.ext (by match a with | ⟨0, _⟩ => rfl | ⟨1, _⟩ => rfl)
/-- The context product ctx·W at (b, r) reads row `b` of ctx -/
theorem lidx0 (b : Fin 4096) (r : Fin 256) (k : Fin 512) : lidx_main_v0 (ix2 b r) k = ix2 b k :=
  funext fun a => Fin.ext (by match a with | ⟨0, _⟩ => rfl | ⟨1, _⟩ => rfl)
/-- and column `r` of W. -/
theorem ridx0 (b : Fin 4096) (r : Fin 256) (k : Fin 512) : ridx_main_v0 (ix2 b r) k = ix2 k r :=
  funext fun a => Fin.ext (by match a with | ⟨0, _⟩ => rfl | ⟨1, _⟩ => rfl)
/-- `S` broadcast to [4096, 256] is read at the rank index, -/
theorem idxS (b : Fin 4096) (r : Fin 256) : idx_main_v10 (idx_main_v11 (ix2 b r)) = ix1 r :=
  funext fun a => Fin.ext (by match a with | ⟨0, _⟩ => rfl)
/-- `Bc` likewise, -/
theorem idxBc (b : Fin 4096) (r : Fin 256) : idx_main_v1 (idx_main_v2 (ix2 b r)) = ix1 r :=
  funext fun a => Fin.ext (by match a with | ⟨0, _⟩ => rfl)
/-- and `bias` broadcast to [4096, 2048] at the column. -/
theorem idxBias (b : Fin 4096) (q : Fin 2048) : idx_main_v17 (idx_main_v18 (ix2 b q)) = ix1 q :=
  funext fun a => Fin.ext (by match a with | ⟨0, _⟩ => rfl)

/-! ## The last stage at an index -/

/-- The reference's result at (b, q) is the layer's entry there. -/
theorem stage_apply (x0 : (⟨S4096x2048, .f32⟩ : BufTy).Contents (Elt Ideal)) (x1 : (⟨S4096x512, .f32⟩ : BufTy).Contents (Elt Ideal))
    (x2 : (⟨S2048x256, .f32⟩ : BufTy).Contents (Elt Ideal)) (x3 : (⟨S256, .f32⟩ : BufTy).Contents (Elt Ideal))
    (x4 : (⟨S2048x256, .f32⟩ : BufTy).Contents (Elt Ideal)) (x5 : (⟨S512x256, .f32⟩ : BufTy).Contents (Elt Ideal))
    (x6 : (⟨S256, .f32⟩ : BufTy).Contents (Elt Ideal)) (x7 : (⟨S2048, .f32⟩ : BufTy).Contents (Elt Ideal))
    (b : Fin 4096) (q : Fin 2048) :
    val_main_v19 (F := Ideal) x0 x1 x2 x3 x4 x5 x6 x7 (ix2 b q) = layerAt x0 x1 x2 x3 x4 x5 x6 x7 b q := by
  rw [val_main_v19_apply, val_main_v16_apply, val_main_v18_apply, val_main_v17_apply]
  unfold layerAt entryOf Ideal.logistic
  simp only [val_main_v14_apply, val_main_v15_apply, val_main_v13_apply, val_main_v12_apply, val_main_v11_apply,
    val_main_v10_apply, val_main_v9_apply, val_main_v8_apply, val_main_cst_0_apply, val_main_v7_apply, val_main_v6_apply,
    val_main_cst_apply, val_main_v5_apply, val_main_v4_apply, val_main_v3_apply, val_main_v2_apply, val_main_v1_apply,
    val_main_v0_apply, lidx16, ridx16, idx15, lidx13, ridx13, lidx0, ridx0, idxS, idxBc, idxBias,
    Ideal.addf_def, Ideal.mulf_def, Ideal.hostDivf_def, Ideal.hostUnary_exp_def, Ideal.hostNegf_def, Ideal.negf_def,
    Ideal.ofBits_def, Ideal.ofBits_one_f32]

/-- The reference's result array is the layer of its argument arrays. -/
theorem stage_eq (x0 : (⟨S4096x2048, .f32⟩ : BufTy).Contents (Elt Ideal)) (x1 : (⟨S4096x512, .f32⟩ : BufTy).Contents (Elt Ideal))
    (x2 : (⟨S2048x256, .f32⟩ : BufTy).Contents (Elt Ideal)) (x3 : (⟨S256, .f32⟩ : BufTy).Contents (Elt Ideal))
    (x4 : (⟨S2048x256, .f32⟩ : BufTy).Contents (Elt Ideal)) (x5 : (⟨S512x256, .f32⟩ : BufTy).Contents (Elt Ideal))
    (x6 : (⟨S256, .f32⟩ : BufTy).Contents (Elt Ideal)) (x7 : (⟨S2048, .f32⟩ : BufTy).Contents (Elt Ideal)) :
    val_main_v19 (F := Ideal) x0 x1 x2 x3 x4 x5 x6 x7 = layer x0 x1 x2 x3 x4 x5 x6 x7 := by
  funext i
  obtain ⟨b, q, rfl⟩ : ∃ (b : Fin 4096) (q : Fin 2048), i = ix2 b q := ⟨i 0, i 1, eq_ix2 i⟩
  exact stage_apply x0 x1 x2 x3 x4 x5 x6 x7 b q

end Cert.Layer.Ref

end
-- ==== Proof.Body.lean ====
/-
  The kernel body's stored value, entry by entry.

  At one grid point the body holds a block of 512 rows of the inputs and of the context, and the whole of
  U, W, the transpose of V (as [256, 2048]) and of S, Bc and bias (as [1, 256], [1, 256], [1, 2048]). It
  stores, at row p and column q of the block,

      ( Σ_r ( (Σ_n x[p,n] · U[n,r]) · ( S[0,r] · σ( (Σ_k ctx[p,k] · W[k,r]) + Bc[0,r] ) ) ) · Vt[r,q] ) + bias[0,q].

  On the extended reals a change of float format is the identity, a matrix product into a zero accumulator is
  the sum over its contracted axis, a broadcast of a one-row block down the rows reads that row, and the
  body's shape casts are between equal shapes; so the stored value is `entryOf` of the rows and columns read.
-/
import proofs.«417704_j14534169330227_3_alg».proof.Proof.Gen.KernelIdeal.Skeleton
import proofs.«417704_j14534169330227_3_alg».proof.Proof.Layer
import Idealize.ShloMosaic.PureOps.Ideal.Laws
import Idealize.ShloMosaic.Lib.ValueIdx
import Idealize.ShloMosaic.Lib.ValueLayout
import Idealize.ShloMosaic.Lib.Pipeline.Value

noncomputable section

namespace Cert.Layer.Body

open Cert.KernelIdeal Cert.KernelIdeal.Gen
open Idealize.ShloMosaic Idealize.ShloMosaic.ValueIdx

/-! ## The context product, [512, 512] × [512, 256] -/

theorem lhs_cw_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_cw_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_cw_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_cw_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The context block times W, at row `p` and rank index `c`: the sum over the 512 context features. -/
theorem matmul_cw (l : FVec Ideal S512x512 .bf16) (r : FVec Ideal S512x256 .bf16) (p : Fin 512) (c : Fin 256) :
    matmul dot_S512x512_S512x256_S512x256_1_0_0_1_n_n none l r (constant S512x256 .f32 0x00000000#32) (ix2 p c)
      = ∑ k : Fin 512, l (ix2 p k) * r (ix2 k c) := by
  refine (Ideal.matmul_constant_zero_apply dot_S512x512_S512x256_S512x256_1_0_0_1_n_n none l r (ix2 p c)).trans ?_
  rw [← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 p c) ((ValueIdx.contrEquiv1 dot_S512x512_S512x256_S512x256_1_0_0_1_n_n 512 rfl rfl).symm k) = ix2 p k := funext fun a => Fin.ext (by
    match a with
    | ⟨0, _⟩ => exact lhs_cw_0 _ _
    | ⟨1, _⟩ => exact (lhs_cw_1 _ _).trans hk)
  have er : dot_S512x512_S512x256_S512x256_1_0_0_1_n_n.rhsIdx (ix2 p c) ((ValueIdx.contrEquiv1 dot_S512x512_S512x256_S512x256_1_0_0_1_n_n 512 rfl rfl).symm k) = ix2 k c := funext fun a => Fin.ext (by
    match a with
    | ⟨0, _⟩ => exact (rhs_cw_0 _ _).trans hk
    | ⟨1, _⟩ => exact rhs_cw_1 _ _)
  rw [el, er]

/-! ## The projection, [512, 2048] × [2048, 256] -/

theorem lhs_xu_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_xu_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_xu_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_xu_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The input block times U, at row `p` and rank index `c`: the sum over the 2048 input features. -/
theorem matmul_xu (l : FVec Ideal S512x2048 .bf16) (r : FVec Ideal S2048x256 .bf16) (p : Fin 512) (c : Fin 256) :
    matmul dot_S512x2048_S2048x256_S512x256_1_0_0_1_n_n none l r (constant S512x256 .f32 0x00000000#32) (ix2 p c)
      = ∑ n : Fin 2048, l (ix2 p n) * r (ix2 n c) := by
  refine (Ideal.matmul_constant_zero_apply dot_S512x2048_S2048x256_S512x256_1_0_0_1_n_n none l r (ix2 p c)).trans ?_
  rw [← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 p c) ((ValueIdx.contrEquiv1 dot_S512x2048_S2048x256_S512x256_1_0_0_1_n_n 2048 rfl rfl).symm k) = ix2 p k := funext fun a => Fin.ext (by
    match a with
    | ⟨0, _⟩ => exact lhs_xu_0 _ _
    | ⟨1, _⟩ => exact (lhs_xu_1 _ _).trans hk)
  have er : dot_S512x2048_S2048x256_S512x256_1_0_0_1_n_n.rhsIdx (ix2 p c) ((ValueIdx.contrEquiv1 dot_S512x2048_S2048x256_S512x256_1_0_0_1_n_n 2048 rfl rfl).symm k) = ix2 k c := funext fun a => Fin.ext (by
    match a with
    | ⟨0, _⟩ => exact (rhs_xu_0 _ _).trans hk
    | ⟨1, _⟩ => exact rhs_xu_1 _ _)
  rw [el, er]

/-! ## The output product, [512, 256] × [256, 2048] -/

theorem lhs_pv_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs_pv_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs_pv_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs_pv_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- The modulated projection times the transpose of V, at row `p` and column `c`: the sum over the rank axis. -/
theorem matmul_pv (l : FVec Ideal S512x256 .bf16) (r : FVec Ideal S256x2048 .bf16) (p : Fin 512) (c : Fin 2048) :
    matmul dot_S512x256_S256x2048_S512x2048_1_0_0_1_n_n none l r (constant S512x2048 .f32 0x00000000#32) (ix2 p c)
      = ∑ k : Fin 256, l (ix2 p k) * r (ix2 k c) := by
  refine (Ideal.matmul_constant_zero_apply dot_S512x256_S256x2048_S512x2048_1_0_0_1_n_n none l r (ix2 p c)).trans ?_
  rw [← Equiv.sum_comp (ValueIdx.contrEquiv1 dot_S512x256_S256x2048_S512x2048_1_0_0_1_n_n 256 rfl rfl).symm]
  refine Finset.sum_congr rfl fun k _ => ?_
  have hk := ValueIdx.contrEquiv1_symm_val dot_S512x256_S256x2048_S512x2048_1_0_0_1_n_n 256 rfl rfl k
  have el : dot_S512x256_S256x2048_S512x2048_1_0_0_1_n_n.lhsIdx (ix2 p c) ((ValueIdx.contrEquiv1 dot_S512x256_S256x2048_S512x2048_1_0_0_1_n_n 256 rfl rfl).symm k) = ix2 p k := funext fun a => Fin.ext (by
    match a with
    | ⟨0, _⟩ => exact lhs_pv_0 _ _
    | ⟨1, _⟩ => exact (lhs_pv_1 _ _).trans hk)
  have er : dot_S512x256_S256x2048_S512x2048_1_0_0_1_n_n.rhsIdx (ix2 p c) ((ValueIdx.contrEquiv1 dot_S512x256_S256x2048_S512x2048_1_0_0_1_n_n 256 rfl rfl).symm k) = ix2 k c := funext fun a => Fin.ext (by
    match a with
    | ⟨0, _⟩ => exact (rhs_pv_0 _ _).trans hk
    | ⟨1, _⟩ => exact rhs_pv_1 _ _)
  rw [el, er]

/-! ## The stored value -/

/-- The value the body stores, at row `p` and column `q` of the block, from the eight loaded blocks. -/
theorem stored_apply (v0 : FVec Ideal S512x512 .f32) (v2 : FVec Ideal S512x256 .bf16) (v5 v10 : FVec Ideal S1x256 .f32)
    (v14 : FVec Ideal S512x2048 .f32) (v16 : FVec Ideal S2048x256 .bf16) (v21 : FVec Ideal S256x2048 .bf16)
    (v24 : FVec Ideal S1x2048 .f32) (p : Fin 512) (q : Fin 2048) :
    k0_pay1 (F := Ideal) v0 v2 v5 v10 v14 v16 v21 v24 (ix2 p q)
      = entryOf (fun n => v14 (ix2 p n)) (fun k => v0 (ix2 p k)) (fun n r => v16 (ix2 n r)) (fun k r => v2 (ix2 k r))
          (fun r => v10 (ix2 (0 : Fin 1) r)) (fun r => v5 (ix2 (0 : Fin 1) r)) (fun r => v21 (ix2 r q)) (v24 (ix2 (0 : Fin 1) q)) := by
  unfold k0_pay1 entryOf
  simp only [shapeCast_self]
  rw [addf_apply, matmul_pv, broadcastTo_1b_ab_apply]
  refine congrArg (· + v24 (ix2 (0 : Fin 1) q)) (Finset.sum_congr rfl fun r _ => ?_)
  rw [truncf_apply, mulf_apply, matmul_xu, mulf_apply, broadcastTo_1b_ab_apply]
  show _ * (_ * FloatOps.logistic (addf _ _ (ix2 p r))) * _ = _
  rw [addf_apply, matmul_cw, broadcastTo_1b_ab_apply, Ideal.logistic_def]
  rfl

end Cert.Layer.Body

end
-- ==== Proof.Operands.lean ====
/-
  What the kernel's blocks hold, in terms of the argument arrays.

  The grid has eight points; point t stages rows 512·t … 512·t + 511 of the inputs and of the context, and
  (at every point) the whole of the six small operands. Those six are written by the host before the launch:
  U and W are the arguments themselves in a narrower float format (the identity on the extended reals), the
  third is V transposed and then narrowed, so its entry (r, q) is V's entry (q, r), and S, Bc and bias are
  the arguments given a leading axis of length one, so their entry (0, r) is the argument's entry r.
-/
import proofs.«417704_j14534169330227_3_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.Layer.Operands

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Which block each window stages at grid point `t`: the row block `t` of the inputs, the context and the output,
    and block (0, 0) — the whole array — of the other six. Decided over the eight points. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-! ## The two windows that move with the grid -/

/-- Row `p` of the input block at point `t` is row `512·t + p` of the inputs. -/
theorem x_read (c : Dev nD) (t : Fin cfg0.N) (p : Fin 512) (n : Fin 2048) (b : Fin 4096) (hb : b.val = t.val * 512 + p.val) :
    iblk m c 0 t (ix2 p n) = m ((c : Thread nD τ).loc main_arg0) (ix2 b n) := by
  obtain ⟨⟨e0, e1⟩, -⟩ := block_index t
  rw [← V_main_arg0 m c]
  show V m c main_arg0 (((cfg0.win 0).blk t).view.emb (ix2 p n)) = V m c main_arg0 (ix2 b n)
  have hi : ((cfg0.win 0).blk t).view.emb (ix2 p n) = ix2 b n := by
    funext a; apply Fin.ext
    match a with
    | ⟨0, _⟩ => show win0_0.index t (0 : Fin 2) * 512 + 1 * p.val = b.val; omega
    | ⟨1, _⟩ => show win0_0.index t (1 : Fin 2) * 2048 + 1 * n.val = n.val; omega
  rw [hi]

/-- Row `p` of the context block at point `t` is row `512·t + p` of the context. -/
theorem ctx_read (c : Dev nD) (t : Fin cfg0.N) (p : Fin 512) (k : Fin 512) (b : Fin 4096) (hb : b.val = t.val * 512 + p.val) :
    iblk m c 1 t (ix2 p k) = m ((c : Thread nD τ).loc main_arg1) (ix2 b k) := by
  obtain ⟨-, ⟨e0, e1⟩, -⟩ := block_index t
  rw [← V_main_arg1 m c]
  show V m c main_arg1 (((cfg0.win 1).blk t).view.emb (ix2 p k)) = V m c main_arg1 (ix2 b k)
  have hi : ((cfg0.win 1).blk t).view.emb (ix2 p k) = ix2 b k := by
    funext a; apply Fin.ext
    match a with
    | ⟨0, _⟩ => show win0_1.index t (0 : Fin 2) * 512 + 1 * p.val = b.val; omega
    | ⟨1, _⟩ => show win0_1.index t (1 : Fin 2) * 512 + 1 * k.val = k.val; omega
  rw [hi]

/-! ## The six operands the host prepares, staged whole -/

/-- `U` narrowed: the block's entry (n, r) is `U`'s. -/
theorem u_read (c : Dev nD) (t : Fin cfg0.N) (n : Fin 2048) (r : Fin 256) :
    iblk m c 2 t (ix2 n r) = m ((c : Thread nD τ).loc main_arg2) (ix2 n r) := by
  obtain ⟨-, -, ⟨e0, e1⟩, -⟩ := block_index t
  have e : @Eq (S2048x256.Idx → EReal) (V m c main_v0)
      (truncf (F := Ideal) (s := S2048x256) (φ := .f32) .bf16 (m ((c : Thread nD τ).loc main_arg2)) bitsLt_bf16_f32) := by
    dsimp only [V, hostOps0]; after_results
  show V m c main_v0 (((cfg0.win 2).blk t).view.emb (ix2 n r)) = _
  have hi : ((cfg0.win 2).blk t).view.emb (ix2 n r) = ix2 n r := by
    funext a; apply Fin.ext
    match a with
    | ⟨0, _⟩ => show win0_2.index t (0 : Fin 2) * 2048 + 1 * n.val = n.val; omega
    | ⟨1, _⟩ => show win0_2.index t (1 : Fin 2) * 256 + 1 * r.val = r.val; omega
  rw [hi, e]; rfl

/-- `W` narrowed: the block's entry (k, r) is `W`'s. -/
theorem w_read (c : Dev nD) (t : Fin cfg0.N) (k : Fin 512) (r : Fin 256) :
    iblk m c 3 t (ix2 k r) = m ((c : Thread nD τ).loc main_arg5) (ix2 k r) := by
  obtain ⟨-, -, -, ⟨e0, e1⟩, -⟩ := block_index t
  have e : @Eq (S512x256.Idx → EReal) (V m c main_v1)
      (truncf (F := Ideal) (s := S512x256) (φ := .f32) .bf16 (m ((c : Thread nD τ).loc main_arg5)) bitsLt_bf16_f32) := by
    dsimp only [V, hostOps0]; after_results
  show V m c main_v1 (((cfg0.win 3).blk t).view.emb (ix2 k r)) = _
  have hi : ((cfg0.win 3).blk t).view.emb (ix2 k r) = ix2 k r := by
    funext a; apply Fin.ext
    match a with
    | ⟨0, _⟩ => show win0_3.index t (0 : Fin 2) * 512 + 1 * k.val = k.val; omega
    | ⟨1, _⟩ => show win0_3.index t (1 : Fin 2) * 256 + 1 * r.val = r.val; omega
  rw [hi, e]; rfl

/-- `V` transposed and narrowed: the block's entry (r, q) is `V`'s entry (q, r). -/
theorem vt_read (c : Dev nD) (t : Fin cfg0.N) (r : Fin 256) (q : Fin 2048) :
    iblk m c 4 t (ix2 r q) = m ((c : Thread nD τ).loc main_arg4) (ix2 q r) := by
  obtain ⟨-, -, -, -, ⟨e0, e1⟩, -⟩ := block_index t
  have e : @Eq (S256x2048.Idx → EReal) (V m c main_v3)
      (truncf (F := Ideal) (s := S256x2048) (φ := .f32) .bf16 (transpose (s := S2048x256) S256x2048 [1, 0] (m ((c : Thread nD τ).loc main_arg4)) transposes_S2048x256_S256x2048_1_0) bitsLt_bf16_f32) := by
    dsimp only [V, hostOps0]; after_results
  show V m c main_v3 (((cfg0.win 4).blk t).view.emb (ix2 r q)) = _
  have hi : ((cfg0.win 4).blk t).view.emb (ix2 r q) = ix2 r q := by
    funext a; apply Fin.ext
    match a with
    | ⟨0, _⟩ => show win0_4.index t (0 : Fin 2) * 256 + 1 * r.val = r.val; omega
    | ⟨1, _⟩ => show win0_4.index t (1 : Fin 2) * 2048 + 1 * q.val = q.val; omega
  rw [hi, e]
  exact transpose_ix2_apply (m ((c : Thread nD τ).loc main_arg4)) transposes_S2048x256_S256x2048_1_0 r q

/-- `S` with a leading unit axis: the block's entry (0, r) is `S`'s entry r. -/
theorem s_read (c : Dev nD) (t : Fin cfg0.N) (r : Fin 256) :
    iblk m c 5 t (ix2 (0 : Fin 1) r) = m ((c : Thread nD τ).loc main_arg3) (ix1 r) := by
  obtain ⟨-, -, -, -, -, ⟨e0, e1⟩, -⟩ := block_index t
  have e : (V m c main_v4 : S1x256.Idx → EReal) = shapeCast S1x256 (m ((c : Thread nD τ).loc main_arg3)) shapeCasts_S256_S1x256 := by
    dsimp only [V, hostOps0]; after_results; rfl
  show V m c main_v4 (((cfg0.win 5).blk t).view.emb (ix2 (0 : Fin 1) r)) = _
  have hi : ((cfg0.win 5).blk t).view.emb (ix2 (0 : Fin 1) r) = ix2 (0 : Fin 1) r := by
    funext a; apply Fin.ext
    match a with
    | ⟨0, _⟩ => show win0_5.index t (0 : Fin 2) * 1 + 1 * 0 = 0; omega
    | ⟨1, _⟩ => show win0_5.index t (1 : Fin 2) * 256 + 1 * r.val = r.val; omega
  rw [hi, e]
  exact shapeCast_a_1a_apply (m ((c : Thread nD τ).loc main_arg3)) shapeCasts_S256_S1x256 (0 : Fin 1) r

/-- `Bc` with a leading unit axis: the block's entry (0, r) is `Bc`'s entry r. -/
theorem bc_read (c : Dev nD) (t : Fin cfg0.N) (r : Fin 256) :
    iblk m c 6 t (ix2 (0 : Fin 1) r) = m ((c : Thread nD τ).loc main_arg6) (ix1 r) := by
  obtain ⟨-, -, -, -, -, -, ⟨e0, e1⟩, -⟩ := block_index t
  have e : (V m c main_v5 : S1x256.Idx → EReal) = shapeCast S1x256 (m ((c : Thread nD τ).loc main_arg6)) shapeCasts_S256_S1x256 := by
    dsimp only [V, hostOps0]; after_results; rfl
  show V m c main_v5 (((cfg0.win 6).blk t).view.emb (ix2 (0 : Fin 1) r)) = _
  have hi : ((cfg0.win 6).blk t).view.emb (ix2 (0 : Fin 1) r) = ix2 (0 : Fin 1) r := by
    funext a; apply Fin.ext
    match a with
    | ⟨0, _⟩ => show win0_6.index t (0 : Fin 2) * 1 + 1 * 0 = 0; omega
    | ⟨1, _⟩ => show win0_6.index t (1 : Fin 2) * 256 + 1 * r.val = r.val; omega
  rw [hi, e]
  exact shapeCast_a_1a_apply (m ((c : Thread nD τ).loc main_arg6)) shapeCasts_S256_S1x256 (0 : Fin 1) r

/-- `bias` with a leading unit axis: the block's entry (0, q) is `bias`'s entry q. -/
theorem bias_read (c : Dev nD) (t : Fin cfg0.N) (q : Fin 2048) :
    iblk m c 7 t (ix2 (0 : Fin 1) q) = m ((c : Thread nD τ).loc main_arg7) (ix1 q) := by
  obtain ⟨-, -, -, -, -, -, -, ⟨e0, e1⟩, -⟩ := block_index t
  have e : (V m c main_v6 : S1x2048.Idx → EReal) = shapeCast S1x2048 (m ((c : Thread nD τ).loc main_arg7)) shapeCasts_S2048_S1x2048 := by
    dsimp only [V, hostOps0]; after_results; rfl
  show V m c main_v6 (((cfg0.win 7).blk t).view.emb (ix2 (0 : Fin 1) q)) = _
  have hi : ((cfg0.win 7).blk t).view.emb (ix2 (0 : Fin 1) q) = ix2 (0 : Fin 1) q := by
    funext a; apply Fin.ext
    match a with
    | ⟨0, _⟩ => show win0_7.index t (0 : Fin 2) * 1 + 1 * 0 = 0; omega
    | ⟨1, _⟩ => show win0_7.index t (1 : Fin 2) * 2048 + 1 * q.val = q.val; omega
  rw [hi, e]
  exact shapeCast_a_1a_apply (m ((c : Thread nD τ).loc main_arg7)) shapeCasts_S2048_S1x2048 (0 : Fin 1) q

end Cert.Layer.Operands

end
-- ==== Proof.Whole.lean ====
/-
  The kernel's result array is the layer of the argument arrays.

  Grid point t writes back the 512 rows 512·t … 512·t + 511 of the result, all 2048 columns. Entry (p, q) of what
  it writes is the body's stored value on the blocks staged at t, which is the layer's entry at row 512·t + p and
  column q of the argument arrays. The eight row blocks cover the [4096, 2048] result (row i lies in block i / 512),
  so after the run the whole array is the layer.
-/
import proofs.«417704_j14534169330227_3_alg».proof.Proof.Gen.KernelIdeal.Value
import proofs.«417704_j14534169330227_3_alg».proof.Proof.Layer
import proofs.«417704_j14534169330227_3_alg».proof.Proof.Body
import proofs.«417704_j14534169330227_3_alg».proof.Proof.Operands

noncomputable section

namespace Cert.Layer.Whole

open Cert.KernelIdeal Cert.KernelIdeal.Gen
open Idealize.ShloMosaic Idealize.ShloMosaic.TcCoe Idealize.SL.Sem Idealize.ShloMosaic.ValueIdx
open Idealize.ShloMosaic.Pipeline (Dat)
open Cert.Layer Cert.Layer.Body Cert.Layer.Operands

variable (m : (ℓ : Loc nD τ sig) → Buf (Elt Ideal) ℓ) (ρ : Dev nD → PrngReg)

/-- The layer of core `c`'s argument arrays as launched. -/
abbrev result (c : Dev nD) : Mat 4096 2048 :=
  layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## One grid point -/

/-- The body's stored value at (p, q), on the blocks staged at point `t`, is the layer's entry at row `b = 512·t + p`
    and column `q`: each family the entry reads is the matching row, column or whole operand of the arguments. -/
theorem point_entry (c : Dev nD) (t : Fin cfg0.N) (p : Fin 512) (q : Fin 2048) (b : Fin 4096) (q' : Fin 2048)
    (hb : b.val = t.val * 512 + p.val) (hq : q'.val = q.val) :
    k0_pay1 (F := Ideal) (iblk m c 1 t) (iblk m c 3 t) (iblk m c 6 t) (iblk m c 5 t) (iblk m c 0 t) (iblk m c 2 t) (iblk m c 4 t) (iblk m c 7 t) (ix2 p q)
      = layerAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b q' := by
  obtain rfl : q' = q := Fin.ext hq
  refine (stored_apply (iblk m c 1 t) (iblk m c 3 t) (iblk m c 6 t) (iblk m c 5 t) (iblk m c 0 t) (iblk m c 2 t) (iblk m c 4 t) (iblk m c 7 t) p q').trans ?_
  unfold layerAt
  refine entryOf_congr (fun n => ?_) (fun k => ?_) (fun n r => ?_) (fun k r => ?_) (fun r => ?_) (fun r => ?_) (fun r => ?_) ?_
  · exact x_read m c t p n b hb
  · exact ctx_read m c t p k b hb
  · exact u_read m c t n r
  · exact w_read m c t k r
  · exact s_read m c t r
  · exact bc_read m c t r
  · exact vt_read m c t r q'
  · exact bias_read m c t q'

theorem origin : (![0, 0] : Fin 2 → Nat) = fun _ => 0 := funext fun a => by fin_cases a <;> rfl

/-- What point `t` writes back is block `t` of the layer. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero origin]
  simp only [View.ld_unit_zero (S := S512x512) origin, View.ld_unit_zero (S := S512x256) origin,
    View.ld_unit_zero (S := S1x256) origin, View.ld_unit_zero (S := S512x2048) origin,
    View.ld_unit_zero (S := S2048x256) origin, View.ld_unit_zero (S := S256x2048) origin,
    View.ld_unit_zero (S := S1x2048) origin]
  obtain ⟨-, -, -, -, -, -, -, -, e0, e1⟩ := block_index t
  funext j
  obtain ⟨p, q, rfl⟩ : ∃ (p : Fin 512) (q : Fin 2048), j = ix2 p q := ⟨j 0, j 1, eq_ix2 j⟩
  show k0_pay1 (F := Ideal) (iblk m c 1 t) (iblk m c 3 t) (iblk m c 6 t) (iblk m c 5 t) (iblk m c 0 t) (iblk m c 2 t) (iblk m c 4 t) (iblk m c 7 t) (ix2 p q)
      = result m c (((cfg0.win 8).blk t).view.emb (ix2 p q))
  refine point_entry m c t p q _ _ ?_ ?_
  · show win0_8.index t (0 : Fin 2) * 512 + 1 * p.val = t.val * 512 + p.val; omega
  · show win0_8.index t (1 : Fin 2) * 2048 + 1 * q.val = q.val; omega

/-! ## The eight blocks cover the result -/

/-- An index is in point `t`'s block iff each coordinate is in the block's range on its axis. -/
theorem mem_block (t : Fin cfg0.N) (i : S4096x2048.Idx) :
    i ∈ ((cfg0.win 8).blk t).view.set ↔ ∀ a : Fin 2, win0_8.index t a * S512x2048.size a ≤ (i a).val
      ∧ (i a).val < win0_8.index t a * S512x2048.size a + S512x2048.size a := by
  show i ∈ ((View.whole main_v7).slice (win0_8.rect t)).set ↔ _
  rw [View.set_slice_whole, Rect.mem_set_unit]
  exact Iff.rfl

/-- Row `i` of the result is written by point `i / 512`. -/
theorem covered (i : S4096x2048.Idx) :
    ∃ t : Fin cfg0.N, (cfg0.win 8).flush t = true ∧ i ∈ ((cfg0.win 8).blk t).view.set := by
  have h0 : (i 0).val < 4096 := (i 0).isLt
  have h1 : (i 1).val < 2048 := (i 1).isLt
  have hN : (i 0).val / 512 < cfg0.N := by
    show (i 0).val / 512 < grid0.N
    rw [N_0]; omega
  obtain ⟨-, -, -, -, -, -, -, -, e0, e1⟩ := block_index ⟨(i 0).val / 512, hN⟩
  have e0' : win0_8.index ⟨(i 0).val / 512, hN⟩ (0 : Fin 2) = (i 0).val / 512 := e0
  refine ⟨⟨(i 0).val / 512, hN⟩, flush0_8 _, ?_⟩
  rw [mem_block]
  intro a
  match a with
  | ⟨0, _⟩ =>
    show win0_8.index ⟨(i 0).val / 512, hN⟩ (0 : Fin 2) * 512 ≤ (i 0).val
      ∧ (i 0).val < win0_8.index ⟨(i 0).val / 512, hN⟩ (0 : Fin 2) * 512 + 512
    omega
  | ⟨1, _⟩ =>
    show win0_8.index ⟨(i 0).val / 512, hN⟩ (1 : Fin 2) * 2048 ≤ (i 1).val
      ∧ (i 1).val < win0_8.index ⟨(i 0).val / 512, hN⟩ (1 : Fin 2) * 2048 + 2048
    omega

/-- After the run the result array is the layer. -/
theorem final (c : Dev nD) : (dats m 0 c).arrAt 8 cfg0.N = result m c :=
  (dats m 0 c).arrAt_eq_of_cover 8 (result m c) (fun t _ => flushed_eq m c t) covered

/-! ## The run -/

/-- Every weakly fair execution of the idealized kernel's program terminates with the result array at the layer of
    the arguments and the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Layer.Whole

end
-- ==== Proof.lean ====
/-
  A context-modulated low-rank dense layer: the kernel and the reference compute the same array.

  Both programs take inputs x : [4096, 2048], a context ctx : [4096, 512], factors U, V : [2048, 256], singular
  values S : [256], context weights W : [512, 256] with bias Bc : [256], and an output bias : [2048], and both
  produce, at row b and column q,

      ( Σ_r ( (Σ_n x[b,n]·U[n,r]) · ( S[r] · σ( (Σ_k ctx[b,k]·W[k,r]) + Bc[r] ) ) ) · V[q,r] ) + bias[q],

  with σ the logistic function. The kernel works on eight blocks of 512 rows; it narrows U, W and the transpose of V
  to a shorter float format and gives S, Bc and bias a leading unit axis before the launch, and it applies the
  logistic function as one operation. The reference multiplies whole matrices and spells the logistic function as
  1 / (1 + exp(−h)). On the extended reals a change of float format is the identity, a matrix product is the sum over
  its contracted axis whatever the tiling, and that quotient is the logistic function by definition, so the two
  results agree entry for entry in the same association of sums and products: no distributive law and hence no
  finiteness of the inputs is needed for the equality (the precondition is not opened).

  `Cert.Layer` states the entry; `Cert.Layer.Ref` shows the reference's last stage is it; `Cert.Layer.Body` reads
  the kernel body's stored value at an entry; `Cert.Layer.Operands` reads the staged blocks in terms of the
  arguments; `Cert.Layer.Whole` assembles the eight row blocks into the whole result.
-/
import proofs.«417704_j14534169330227_3_alg».proof.Defs
import proofs.«417704_j14534169330227_3_alg».proof.Proof.Gen.Kernel
import proofs.«417704_j14534169330227_3_alg».proof.Proof.Gen.Kernel.Skeleton
import proofs.«417704_j14534169330227_3_alg».proof.Proof.Gen.Kernel.Launch
import proofs.«417704_j14534169330227_3_alg».proof.Proof.Gen.Kernel.Points
import proofs.«417704_j14534169330227_3_alg».proof.Proof.Gen.Kernel.Frame
import proofs.«417704_j14534169330227_3_alg».proof.Proof.Gen.KernelIdeal
import proofs.«417704_j14534169330227_3_alg».proof.Proof.Gen.KernelIdeal.Skeleton
import proofs.«417704_j14534169330227_3_alg».proof.Proof.Gen.KernelIdeal.Launch
import proofs.«417704_j14534169330227_3_alg».proof.Proof.Gen.KernelIdeal.Points
import proofs.«417704_j14534169330227_3_alg».proof.Proof.Gen.KernelIdeal.Frame
import proofs.«417704_j14534169330227_3_alg».proof.Proof.Gen.ReferenceIdeal
import proofs.«417704_j14534169330227_3_alg».proof.Proof.Gen.Pre_finite_inputs
import proofs.«417704_j14534169330227_3_alg».proof.Proof.Gen.KernelIdeal.Value
import proofs.«417704_j14534169330227_3_alg».proof.Proof.Gen.ReferenceIdeal.Run
import proofs.«417704_j14534169330227_3_alg».proof.Proof.Gen.ReferenceIdeal.Read
import proofs.«417704_j14534169330227_3_alg».proof.Proof.Layer
import proofs.«417704_j14534169330227_3_alg».proof.Proof.RefLayer
import proofs.«417704_j14534169330227_3_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: it runs, and its run leaves the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments, the kernel's result array and the reference's are both the
    layer of those arguments. -/
theorem algebraic : Cert.algebraic_KernelIdeal_ReferenceIdeal := by
  intro m ρ m' ρ' _ hagree
  refine ⟨fun c => Cert.Layer.Whole.result m c, Cert.Layer.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v19_eq, Cert.Layer.Ref.stage_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
